-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S32768 : Shape := ⟨1, ![32768]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32768x256 .f32) (main_arg1 : FVec F S1024x256 .f32) (main_arg2 : IVec S32768 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S32768x256 : Shape := ⟨2, ![32768, 256]⟩
abbrev S1024x256 : Shape := ⟨2, ![1024, 256]⟩
abbrev S32768 : Shape := ⟨1, ![32768]⟩
abbrev S1x1 : Shape := ⟨2, ![1, 1]⟩
abbrev S512x256 : Shape := ⟨2, ![512, 256]⟩
abbrev S512 : Shape := ⟨1, ![512]⟩
abbrev S256x1024 : Shape := ⟨2, ![256, 1024]⟩
abbrev S512x1024 : Shape := ⟨2, ![512, 1024]⟩
abbrev S512x1 : Shape := ⟨2, ![512, 1]⟩
abbrev S1024 : Shape := ⟨1, ![1024]⟩
abbrev S1x1024 : Shape := ⟨2, ![1, 1024]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S32768, .i32⟩
  | .hbm, ⟨3, _⟩ => ⟨S1x1, .f32⟩
  | .hbm, ⟨4, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S512, .i32⟩
  | .local _ .vmem, ⟨4, _⟩ => ⟨S512, .i32⟩
  | .local _ .vmem, ⟨5, _⟩ => ⟨S1x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S512_S512_0 : ∀ a, (![0] : Fin 1 → Nat) a + S512.size a ≤ S512.size a
  h_S512 : 0 < S512.numel
  bitsLt_bf16_f32 : FTy.bits .bf16 < FTy.bits .f32
  transposes_S1024x256_p1_0_S256x1024 : S1024x256.Transposes [1, 0] S256x1024
  reduces_S512x256_S512 : S512x256.Reduces [1] S512
  shapeCasts_S512_S512x1 : S512.ShapeCasts S512x1
  reduces_S1024x256_S1024 : S1024x256.Reduces [1] S1024
  shapeCasts_S1024_S1x1024 : S1024.ShapeCasts S1x1024
  broadcasts_S512x1_S512x1024 : S512x1.Broadcasts S512x1024
  broadcasts_S1x1024_S512x1024 : S1x1024.Broadcasts S512x1024
  iota_S512x1024_d1_w32 : S512x1024.Iotas .tc 32 [1]
  natLt_1_32 : 1 < 32
  reduces_S512x1024_S512 : S512x1024.Reduces [1] S512
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S32768.size a
  hwx0_2 : ∀ i : grid0.Coords, EltTy.bits .i32 = 32 ∨ (Rect.block (s := S32768) S512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S32768 : Shape := ⟨1, ![32768]⟩
abbrev S_ : Shape := ⟨0, ![]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S32768, .i32⟩
  | .hbm, ⟨3, _⟩ => ⟨S32768x256, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S256x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1, .i32⟩
  | .hbm, ⟨21, _⟩ => ⟨S1024, .i32⟩
  | .hbm, ⟨22, _⟩ => ⟨S1x1024, .i32⟩
  | .hbm, ⟨23, _⟩ => ⟨S32768x1024, .i32⟩
  | .hbm, ⟨24, _⟩ => ⟨S32768x1024, .i32⟩
  | .hbm, ⟨25, _⟩ => ⟨S32768x1024, .i1⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S1024x256_S1024_d1 : S1024x256.ReducesTo [1] S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  transposes_S1024x256_S256x1024_1_0 : S1024x256.Transposes [1, 0] S256x1024
  bcast_S_S32768x1024 : S_.BroadcastsInDim S32768x1024 (![] : Fin 0 → Fin S32768x1024.rank)
  reducesTo_S32768x1024_S_d0_1 : S32768x1024.ReducesTo [0, 1] S_
  dot_S32768x256_S256x1024_S32768x1024_1_0_0_1_n_n_wf : DotDims.WF S32768x256 S256x1024 S32768x1024 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.Distance.lean ====
/-
  The centre loss as ONE function of the argument arrays, over the extended reals.

  For a sample with feature row `x`, a centre with feature row `c`, the sample's label `l` and a class `q`, the
  entry of the masked, clipped distance matrix is
      min hi (max lo ((|x|² + |c|² − 2·⟨x, c⟩) · [l = q]))
  (`term`): the squared distance by the binomial formula, kept only in the sample's own class (`own`: one where the
  label names the class, zero elsewhere), then clamped between the two literal bounds. The loss is the sum of the
  entries over all 32768 samples and all 1024 classes, divided by the sample count (`total`, `loss`).

  The sum may be taken in blocks of 512 consecutive samples (`blockSum`), the block sums added one after another
  from zero (`upTo`): addition of extended reals is commutative and associative, so the ordered chain over the 64
  blocks is the whole double sum (`upTo_last`, `sum_blocks`). No finiteness is needed: the two sides apply the same
  operations to every entry and differ only in how the one big sum is grouped.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.CenterLoss

/-- One where the label names class `q`, zero elsewhere: the comparison's bit read as a number. -/
def own (l : BitVec 32) (q : Fin 1024) : EReal := (((IntOp.cmpi .eq l (BitVec.ofNat 32 q.val)).toNat : ℝ) : EReal)

/-- The entry for one sample row `x`, one centre row `c`, the sample's label and a class: the squared distance
    `|x|² + |c|² − 2⟨x, c⟩`, kept in the own class only, clamped to the literal bounds. -/
def term (x c : Fin 256 → EReal) (l : BitVec 32) (q : Fin 1024) : EReal :=
  min (Ideal.ofBits .f32 0x5368D4A5#32) (max (Ideal.ofBits .f32 0x2B8CBCCC#32)
    ((((∑ k : Fin 256, x k * x k) + ∑ k : Fin 256, c k * c k)
        - Ideal.ofBits .f32 0x40000000#32 * ∑ k : Fin 256, x k * c k) * own l q))

/-- The samples, the centres, the labels; a block of 512 samples and its labels. -/
abbrev Samples : Shape := ⟨2, ![32768, 256]⟩
abbrev Centres : Shape := ⟨2, ![1024, 256]⟩
abbrev Labels : Shape := ⟨1, ![32768]⟩
abbrev SampleBlock : Shape := ⟨2, ![512, 256]⟩
abbrev LabelBlock : Shape := ⟨1, ![512]⟩

/-- Sample `b`'s entry in class `q`, from the whole arrays. -/
def cell (X : Samples.Idx → EReal) (C : Centres.Idx → EReal) (L : Labels.Idx → BitVec 32) (b : Fin 32768) (q : Fin 1024) : EReal :=
  term (fun k => X (ix2 b k)) (fun k => C (ix2 q k)) (L (ix1 b)) q

/-- All entries added up. -/
def total (X : Samples.Idx → EReal) (C : Centres.Idx → EReal) (L : Labels.Idx → BitVec 32) : EReal :=
  ∑ b : Fin 32768, ∑ q : Fin 1024, cell X C L b q

/-- The loss: the total divided by the number of samples. -/
def loss (X : Samples.Idx → EReal) (C : Centres.Idx → EReal) (L : Labels.Idx → BitVec 32) : EReal :=
  Ideal.div (total X C L) (Ideal.ofBits .f32 0x47000000#32)

/-- The entries of one block of 512 samples added up, from the block's own rows and labels. -/
def blockSum (x : SampleBlock.Idx → EReal) (C : Centres.Idx → EReal) (l : LabelBlock.Idx → BitVec 32) : EReal :=
  ∑ p : Fin 512, ∑ q : Fin 1024, term (fun k => x (ix2 p k)) (fun k => C (ix2 q k)) (l (ix1 p)) q

/-- The first `n + 1` terms of a sequence added up. -/
def upTo (f : ℕ → EReal) (n : ℕ) : EReal := ∑ t ∈ Finset.range (n + 1), f t

theorem upTo_zero (f : ℕ → EReal) : upTo f 0 = 0 + f 0 := by
  simp [upTo]

theorem upTo_succ (f : ℕ → EReal) (n : ℕ) : upTo f (n + 1) = upTo f n + f (n + 1) := by
  unfold upTo
  rw [Finset.sum_range_succ]

/-- All 64 terms: the sum over the 64 positions. -/
theorem upTo_last (f : ℕ → EReal) : upTo f 63 = ∑ t : Fin 64, f t.val := by
  unfold upTo
  rw [Fin.sum_univ_eq_sum_range]

/-- Row `p` of block `t` is row `512 t + p` of the whole. -/
def rowOf (t : Fin 64) (p : Fin 512) : Fin 32768 := ⟨512 * t.val + p.val, by have := t.isLt; have := p.isLt; omega⟩

/-- A sum over the 32768 samples is the sum over the 64 blocks of the sum over each block's 512 rows. -/
theorem sum_blocks (f : Fin 32768 → EReal) : ∑ b : Fin 32768, f b = ∑ t : Fin 64, ∑ p : Fin 512, f (rowOf t p) := by
  rw [← Fintype.sum_prod_type']
  have e : ∀ tp : Fin 64 × Fin 512, (finProdFinEquiv tp : Fin 32768) = rowOf tp.1 tp.2 := fun tp => by
    apply Fin.ext
    show tp.2.val + 512 * tp.1.val = 512 * tp.1.val + tp.2.val
    omega
  rw [← Equiv.sum_comp (finProdFinEquiv : Fin 64 × Fin 512 ≃ Fin 32768) f]
  exact Finset.sum_congr rfl fun tp _ => by rw [e tp]

end Cert.CenterLoss

end
-- ==== Proof.Reference.lean ====
/-
  The reference's result, read back: it is the loss.

  The host program squares the samples and the centres and adds each row up, broadcasts the two vectors of squared norms
  to the 32768 × 1024 matrix, subtracts twice the product of the samples with the transposed centres, multiplies by the
  comparison of each sample's label with the class counter (converted to a number), clamps between the two literal
  bounds, adds ALL entries up in one reduction from zero and divides by the sample count. Entry (b, q) of the clamped
  matrix is `cell` of the argument arrays (`entry_eq`: each layout operation read at its index, the row sums and the
  product as sums over the 256 features), so the one reduction is the double sum `total` and the result is `loss`
  (`result_eq`).
-/
import proofs.«161858_j69681549410333_1_alg».proof.Defs
import proofs.«161858_j69681549410333_1_alg».proof.Proof.Gen.ReferenceIdeal
import proofs.«161858_j69681549410333_1_alg».proof.Proof.Gen.ReferenceIdeal.Read
import proofs.«161858_j69681549410333_1_alg».proof.Proof.Distance

noncomputable section

open scoped BigOperators
open Idealize.ShloMosaic Idealize.ShloMosaic.ValueIdx

namespace Cert.ReferenceIdeal.RefValue

open Cert.ReferenceIdeal Cert.ReferenceIdeal.Read Cert.CenterLoss

variable (x0 : (⟨S32768x256, .f32⟩ : BufTy).Contents (Elt Ideal)) (x1 : (⟨S1024x256, .f32⟩ : BufTy).Contents (Elt Ideal))
  (x2 : (⟨S32768, .i32⟩ : BufTy).Contents (Elt Ideal))

/-- The clamped matrix at (b, q) is sample b's entry in class q. -/
theorem entry_eq (b : Fin 32768) (q : Fin 1024) :
    val_main_v22 (F := Ideal) x0 x1 x2 (ix2 b q) = cell x0 x1 x2 b q := by
  have e1 : ∀ k : Fin 256, idx_main_v1 (idx_main_v2 (idx_main_v6 (ix2 b q))) k = ix2 b k := fun k =>
    funext fun a => Fin.ext (by match a with | ⟨0, _⟩ => rfl | ⟨1, _⟩ => rfl)
  have e2 : ∀ k : Fin 256, idx_main_v4 (idx_main_v5 (idx_main_v7 (ix2 b q))) k = ix2 q k := fun k =>
    funext fun a => Fin.ext (by match a with | ⟨0, _⟩ => rfl | ⟨1, _⟩ => rfl)
  have e3 : ∀ k : Fin 256, lidx_main_v10 (ix2 b q) k = ix2 b k := fun k =>
    funext fun a => Fin.ext (by match a with | ⟨0, _⟩ => rfl | ⟨1, _⟩ => rfl)
  have e4 : ∀ k : Fin 256, idx_main_v9 (ridx_main_v10 (ix2 b q) k) = ix2 q k := fun k =>
    funext fun a => Fin.ext (by match a with | ⟨0, _⟩ => rfl | ⟨1, _⟩ => rfl)
  have e5 : idx_main_v14 (idx_main_v17 (ix2 b q)) = ix1 b :=
    funext fun a => Fin.ext (by match a with | ⟨0, _⟩ => rfl)
  rw [val_main_v22_apply, val_main_call0_v4_apply, val_main_call0_v3_apply, val_main_cst_3_apply,
    val_main_call0_v2_apply, val_main_call0_v1_apply, val_main_call0_v0_apply, val_main_cst_2_apply,
    val_main_v21_apply, val_main_v13_apply, val_main_v8_apply, val_main_v6_apply, val_main_v2_apply, val_main_v1_apply,
    val_main_v7_apply, val_main_v5_apply, val_main_v4_apply, val_main_v12_apply, val_main_v11_apply, val_main_cst_1_apply,
    val_main_v10_apply, val_main_v20_apply, val_main_v19_apply, val_main_v17_apply, val_main_v14_apply,
    val_main_v18_apply, val_main_v16_apply, val_main_v15_apply]
  simp only [val_main_v0_apply, val_main_v3_apply, val_main_v9_apply, val_main_cst_apply, val_main_cst_0_apply, e1, e2, e3, e4, e5,
    Ideal.ofBits_def, Ideal.ofBits_zero_f32, zero_add, Ideal.mulf_def, Ideal.addf_def, Ideal.subf_def,
    Ideal.minimumf_def, Ideal.maximumf_def]
  rfl

/-- The reference's result is the loss of its arguments. -/
theorem result_eq : val_main_v24 (F := Ideal) x0 x1 x2 = fun _ => loss x0 x1 x2 := by
  funext i
  rw [val_main_v24_apply, val_main_v23_apply, val_main_cst_5_apply, val_main_cst_4_apply, sum_idx2]
  simp only [entry_eq, Ideal.ofBits_def, Ideal.ofBits_zero_f32, zero_add, Ideal.hostDivf_def]
  rfl

end Cert.ReferenceIdeal.RefValue

end
-- ==== Proof.Pieces.lean ====
/-
  What each control case leaves in the output cell, as the body's stored values.

  The body runs in one of three ways. At the first grid point it stores zero into the cell, reads it back, and stores the
  accumulating value over it. At the middle points it stores the accumulating value over what the point before left. At the
  last point it stores the accumulating value, reads it back, and stores the quotient over it. In each case the last
  store covers the cell, every load reads a whole buffer, and a load of the cell after a store reads the stored value; so
  the cell ends at the accumulating value of the zero cell, of the previous contents, and at the quotient of the latter.
  Stated for any float instance.
-/
import proofs.«161858_j69681549410333_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

theorem out_B (c : Dev nD) (i : grid0.Coords) (a1 : Memref sig .tc .vmem S512x256 .f32) (h1 : a1.IsWhole)
    (a2 : Memref sig .tc .vmem S1024x256 .f32) (h2 : a2.IsWhole) (a3 : Memref sig .tc .vmem S512 .i32) (h3 : a3.IsWhole)
    (a4 : Memref sig .tc .vmem S1x1 .f32) (h4 : a4.IsWhole) (hc0 : ¬cond0_0 i) (hc1 : ¬cond0_1 i)
    (x0 : Vec F S512x256 .f32) (x1 : Vec F S1024x256 .f32) (x2 : Vec F S512 .i32) (xo3 : Vec F S1x1 .f32) :
    out0_B_3 c i a1 h1 a2 h2 a3 h3 a4 h4 hc0 hc1 x0 x1 x2 xo3 = k0_pay3 x0 x1 x2 xo3 := by
  unfold out0_B_3
  rw [View.read_writes_eq_canon _ _ _ (cover0_B_3 c i a1 h1 a2 h2 a3 h3 a4 h4 hc0 hc1 x0 x1 x2 xo3)]
  unfold kernelRun0_B
  dsimp only
  sl_unfold_words
  rw [View.canon_unit_zero hz]
  simp only [View.readAt_eq_ld, h1.read_unread, h2.read_unread, h3.read_unread, h4.read_unread,
    View.ld_unit_zero (S := S512x256) hz, View.ld_unit_zero (S := S1024x256) hz, View.ld_unit_zero (S := S512) hz1,
    View.ld_unit_zero (S := S1x1) hz]

theorem out_A (c : Dev nD) (i : grid0.Coords) (a1 : Memref sig .tc .vmem S512x256 .f32) (h1 : a1.IsWhole)
    (a2 : Memref sig .tc .vmem S1024x256 .f32) (h2 : a2.IsWhole) (a3 : Memref sig .tc .vmem S512 .i32) (h3 : a3.IsWhole)
    (a4 : Memref sig .tc .vmem S1x1 .f32) (h4 : a4.IsWhole) (hc0 : cond0_0 i) (hc1 : ¬cond0_1 i)
    (x0 : Vec F S512x256 .f32) (x1 : Vec F S1024x256 .f32) (x2 : Vec F S512 .i32) :
    out0_A_3 c i a1 h1 a2 h2 a3 h3 a4 h4 hc0 hc1 x0 x1 x2 = k0_pay3 x0 x1 x2 (k0_pay2 (F := F)) := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S512x256) hz, View.ld_unit_zero (S := S1024x256) hz, View.ld_unit_zero (S := S512) hz1,
    View.ld_unit_zero (S := S1x1) hz]

theorem out_C (c : Dev nD) (i : grid0.Coords) (a1 : Memref sig .tc .vmem S512x256 .f32) (h1 : a1.IsWhole)
    (a2 : Memref sig .tc .vmem S1024x256 .f32) (h2 : a2.IsWhole) (a3 : Memref sig .tc .vmem S512 .i32) (h3 : a3.IsWhole)
    (a4 : Memref sig .tc .vmem S1x1 .f32) (h4 : a4.IsWhole) (hc0 : ¬cond0_0 i) (hc1 : cond0_1 i)
    (x0 : Vec F S512x256 .f32) (x1 : Vec F S1024x256 .f32) (x2 : Vec F S512 .i32) (xo3 : Vec F S1x1 .f32) :
    out0_C_3 c i a1 h1 a2 h2 a3 h3 a4 h4 hc0 hc1 x0 x1 x2 xo3 = k0_pay1 (k0_pay3 x0 x1 x2 xo3) := by
  unfold out0_C_3
  rw [View.read_writes_eq_canon _ _ _ (cover0_C_3 c i a1 h1 a2 h2 a3 h3 a4 h4 hc0 hc1 x0 x1 x2 xo3)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S512x256) hz, View.ld_unit_zero (S := S1024x256) hz, View.ld_unit_zero (S := S512) hz1,
    View.ld_unit_zero (S := S1x1) hz]

end Cert.KernelIdeal.Pieces

end
-- ==== Proof.BlockValue.lean ====
/-
  One grid point's arithmetic, read entry by entry over the extended reals.

  At a grid point the body holds a block `x` of 512 sample rows, all 1024 centre rows `c` and the block's 512 labels `l`.
  It forms, for row `p` and class `q`,
      |x_p|²  (a lane sum of squares, laid out as a column and repeated along the classes),
      |c_q|²  (the same over the centres, laid out as a row and repeated along the samples),
      ⟨x_p, c_q⟩  (the matrix product of the block with the transposed centres, into a zero accumulator),
      [l_p = q]   (the label column compared with the class counter, widened and converted),
  combines them to `(|x_p|² + |c_q|²) − 2⟨x_p, c_q⟩`, multiplies by the mask and clamps: entry (p, q) is `term` of the
  row, the centre, the label and the class (`clipped_apply`). Summing along the classes and then along the rows gives
  the block's sum (`blockTotal_apply`), which the body adds to what the output cell held (`step_apply`); the reset
  writes zero (`reset_eq`) and the last point divides by the sample count (`mean_apply`).
  The narrowing to sixteen bits before the product is the identity on extended reals.
-/
import proofs.«161858_j69681549410333_1_alg».proof.Proof.Gen.KernelIdeal.Skeleton
import proofs.«161858_j69681549410333_1_alg».proof.Proof.Distance
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.BlockValue

open Cert.KernelIdeal Cert.KernelIdeal.Facts₀ Cert.CenterLoss
open Cert.KernelIdeal.Gen (k0_pay1 k0_pay2 k0_pay3)

/-! ## Layout: a vector laid out as a column and repeated along the classes -/

/-- A length-512 vector cast to a column and broadcast along 1024 lanes reads, at (p, q), its entry p. -/
theorem column_apply {α : Type} (v : S512.Idx → α) (p : Fin 512) (q : Fin 1024) :
    broadcastTo S512x1024 (shapeCast S512x1 v shapeCasts_S512_S512x1) broadcasts_S512x1_S512x1024 (ix2 p q) = v (ix1 p) := by
  refine (broadcastTo_apply _ broadcasts_S512x1_S512x1024 (ix2 p q) (ix2 p (0 : Fin 1)) fun a => ?_).trans ?_
  · match a with
    | ⟨0, _⟩ => show p.val = if (512 : ℕ) = 1 then 0 else p.val; rw [if_neg (by decide)]
    | ⟨1, _⟩ => show 0 = if (1 : ℕ) = 1 then 0 else q.val; rw [if_pos rfl]
  · refine shapeCast_apply v shapeCasts_S512_S512x1 (ix2 p (0 : Fin 1)) (ix1 p) ?_
    rw [Shape.rowMajor_val_one, Shape.rowMajor_val_two]
    show p.val = p.val * 1 + 0
    omega

/-- A one-bit word widened to 32 bits and read signed is the bit read unsigned. -/
theorem bit_signed (b : BitVec 1) : (((b.setWidth 32).toInt : ℝ) : EReal) = ((b.toNat : ℝ) : EReal) := by
  rcases BitVec.eq_zero_or_eq_one b with rfl | rfl <;> simp

/-! ## The four ingredients at (p, q) -/

section
variable (x0 : FVec Ideal S512x256 .f32) (x1 : FVec Ideal S1024x256 .f32) (x2 : Vec Ideal S512 .i32)

/-- Each sample's squared norm, repeated along the classes. -/
def sampleSq : FVec Ideal S512x1024 .f32 :=
  broadcastTo S512x1024 (shapeCast S512x1 (multiReduction .add [1] S512 (mulf x0 x0) 0x00000000#32 reduces_S512x256_S512 (.inl rfl) rfl) shapeCasts_S512_S512x1) broadcasts_S512x1_S512x1024

theorem sampleSq_apply (p : Fin 512) (q : Fin 1024) : sampleSq x0 (ix2 p q) = ∑ k : Fin 256, x0 (ix2 p k) * x0 (ix2 p k) := by
  unfold sampleSq
  refine (column_apply _ p q).trans ?_
  refine (Ideal.multiReduction_add_single (mulf x0 x0) 0x00000000#32 reduces_S512x256_S512 (.inl rfl) rfl (ix1 p)).trans ?_
  exact Finset.sum_congr rfl fun k _ => congrArg (fun i => x0 i * x0 i)
    (funext fun a => Fin.ext (by match a with | ⟨0, _⟩ => rfl | ⟨1, _⟩ => rfl))

/-- Each centre's squared norm, repeated along the samples. -/
def centreSq : FVec Ideal S512x1024 .f32 :=
  broadcastTo S512x1024 (shapeCast S1x1024 (multiReduction .add [1] S1024 (mulf x1 x1) 0x00000000#32 reduces_S1024x256_S1024 (.inl rfl) rfl) shapeCasts_S1024_S1x1024) broadcasts_S1x1024_S512x1024

theorem centreSq_apply (p : Fin 512) (q : Fin 1024) : centreSq x1 (ix2 p q) = ∑ k : Fin 256, x1 (ix2 q k) * x1 (ix2 q k) := by
  unfold centreSq
  refine (broadcastTo_1b_ab_apply _ broadcasts_S1x1024_S512x1024 p q).trans ?_
  refine (shapeCast_a_1a_apply _ shapeCasts_S1024_S1x1024 (0 : Fin 1) q).trans ?_
  refine (Ideal.multiReduction_add_single (mulf x1 x1) 0x00000000#32 reduces_S1024x256_S1024 (.inl rfl) rfl (ix1 q)).trans ?_
  exact Finset.sum_congr rfl fun k _ => congrArg (fun i => x1 i * x1 i)
    (funext fun a => Fin.ext (by match a with | ⟨0, _⟩ => rfl | ⟨1, _⟩ => rfl))

/-- The product's operand indices: the output's row with the contraction coordinate, the contraction coordinate with
    the output's column. -/
theorem lhs_axis0 (i : S512x1024.Idx) (r : dot_S512x256_S256x1024_S512x1024_1_0_0_1_n_n.contr.Idx) :
    (dot_S512x256_S256x1024_S512x1024_1_0_0_1_n_n.lhsIdx i r 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_axis1 (i : S512x1024.Idx) (r : dot_S512x256_S256x1024_S512x1024_1_0_0_1_n_n.contr.Idx) :
    (dot_S512x256_S256x1024_S512x1024_1_0_0_1_n_n.lhsIdx i r 1).val = (r ⟨0, by decide⟩).val :=
  dot_S512x256_S256x1024_S512x1024_1_0_0_1_n_n.lhsIdx_val_of_single rfl i r
theorem rhs_axis0 (i : S512x1024.Idx) (r : dot_S512x256_S256x1024_S512x1024_1_0_0_1_n_n.contr.Idx) :
    (dot_S512x256_S256x1024_S512x1024_1_0_0_1_n_n.rhsIdx i r 0).val = (r ⟨0, by decide⟩).val :=
  dot_S512x256_S256x1024_S512x1024_1_0_0_1_n_n.rhsIdx_val_of_single rfl i r
theorem rhs_axis1 (i : S512x1024.Idx) (r : dot_S512x256_S256x1024_S512x1024_1_0_0_1_n_n.contr.Idx) :
    (dot_S512x256_S256x1024_S512x1024_1_0_0_1_n_n.rhsIdx i r 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The block times the transposed centres, into a zero accumulator. -/
def inner : FVec Ideal S512x1024 .f32 :=
  matmul dot_S512x256_S256x1024_S512x1024_1_0_0_1_n_n none (truncf .bf16 x0 bitsLt_bf16_f32)
    (transpose S256x1024 [1, 0] (truncf .bf16 x1 bitsLt_bf16_f32) transposes_S1024x256_p1_0_S256x1024) (constant S512x1024 .f32 0x00000000#32)

theorem inner_apply (p : Fin 512) (q : Fin 1024) : inner x0 x1 (ix2 p q) = ∑ k : Fin 256, x0 (ix2 p k) * x1 (ix2 q k) := by
  unfold inner
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p q) ((contrEquiv1 dot_S512x256_S256x1024_S512x1024_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S512x256_S256x1024_S512x1024_1_0_0_1_n_n.rhsIdx (ix2 p q) ((contrEquiv1 dot_S512x256_S256x1024_S512x1024_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]
  exact congrArg (x0 (ix2 p k) * ·) (transpose_ix2_apply (truncf .bf16 x1 bitsLt_bf16_f32) transposes_S1024x256_p1_0_S256x1024 k q)

/-- One where the row's label is the class, zero elsewhere. -/
def ownMask : FVec Ideal S512x1024 .f32 :=
  sitofp .f32 (extui 32 (cmpi .eq (broadcastTo S512x1024 (shapeCast S512x1 x2 shapeCasts_S512_S512x1) broadcasts_S512x1_S512x1024)
    (iota .tc S512x1024 32 [1] iota_S512x1024_d1_w32)) natLt_1_32)

theorem ownMask_apply (p : Fin 512) (q : Fin 1024) : ownMask x2 (ix2 p q) = own (x2 (ix1 p)) q := by
  have e1 : broadcastTo S512x1024 (shapeCast S512x1 x2 shapeCasts_S512_S512x1) broadcasts_S512x1_S512x1024 (ix2 p q) = x2 (ix1 p) :=
    column_apply x2 p q
  have e2 : iota .tc S512x1024 32 [1] iota_S512x1024_d1_w32 (ix2 p q) = BitVec.ofNat 32 q.val :=
    iota_single_apply .tc S512x1024 32 1 iota_S512x1024_d1_w32 (ix2 p q)
  unfold ownMask own
  show ((((IntOp.cmpi .eq (broadcastTo S512x1024 (shapeCast S512x1 x2 shapeCasts_S512_S512x1) broadcasts_S512x1_S512x1024 (ix2 p q))
    (iota .tc S512x1024 32 [1] iota_S512x1024_d1_w32 (ix2 p q))).setWidth 32).toInt : ℝ) : EReal) = _
  rw [e1, e2]
  exact bit_signed _

/-! ## The clamped entry, the block's sum, and the three stored values -/

/-- The masked squared distances of the block, clamped. -/
def clipped : FVec Ideal S512x1024 .f32 :=
  minimumf (broadcast S512x1024 (Scalar.ofBits .f32 0x5368D4A5#32)) (maximumf (broadcast S512x1024 (Scalar.ofBits .f32 0x2B8CBCCC#32))
    (mulf (subf (addf (sampleSq x0) (centreSq x1)) (mulf (broadcast S512x1024 (Scalar.ofBits .f32 0x40000000#32)) (inner x0 x1))) (ownMask x2)))

theorem clipped_apply (p : Fin 512) (q : Fin 1024) :
    clipped x0 x1 x2 (ix2 p q) = term (fun k => x0 (ix2 p k)) (fun k => x1 (ix2 q k)) (x2 (ix1 p)) q := by
  unfold clipped term
  show min _ (max _ (((sampleSq x0 (ix2 p q) + centreSq x1 (ix2 p q)) - _ * inner x0 x1 (ix2 p q)) * ownMask x2 (ix2 p q))) = _
  rw [sampleSq_apply, centreSq_apply, inner_apply, ownMask_apply]
  rfl

/-- The block's entries added along the classes, then along the rows, as a 1×1 value. -/
def blockTotal : FVec Ideal S1x1 .f32 :=
  shapeCast S1x1 (multiReduction .add [0] S1 (shapeCast S512x1 (multiReduction .add [1] S512 (clipped x0 x1 x2) 0x00000000#32 reduces_S512x1024_S512 (.inl rfl) rfl) shapeCasts_S512_S512x1)
    0x00000000#32 reduces_S512x1_S1 (.inl rfl) rfl) shapeCasts_S1_S1x1

theorem blockTotal_apply (u v : Fin 1) : blockTotal x0 x1 x2 (ix2 u v) = blockSum x0 x1 x2 := by
  unfold blockTotal blockSum
  refine (shapeCast_a_1a_apply _ shapeCasts_S1_S1x1 u v).trans ?_
  refine (Ideal.multiReduction_add_single _ 0x00000000#32 reduces_S512x1_S1 (.inl rfl) rfl (ix1 v)).trans ?_
  refine Finset.sum_congr rfl fun p _ => ?_
  have e : reduces_S512x1_S1.lift (ix1 v) p = ix2 p (0 : Fin 1) := funext fun a => Fin.ext (by
    match a with
    | ⟨0, _⟩ => rfl
    | ⟨1, _⟩ => show v.val = 0; omega)
  rw [e]
  refine (shapeCast_apply _ shapeCasts_S512_S512x1 (ix2 p (0 : Fin 1)) (ix1 p) ?_).trans ?_
  · rw [Shape.rowMajor_val_one, Shape.rowMajor_val_two]
    show p.val = p.val * 1 + 0
    omega
  refine (Ideal.multiReduction_add_single (clipped x0 x1 x2) 0x00000000#32 reduces_S512x1024_S512 (.inl rfl) rfl (ix1 p)).trans ?_
  refine Finset.sum_congr rfl fun q _ => ?_
  have e' : reduces_S512x1024_S512.lift (ix1 p) q = ix2 p q := funext fun a => Fin.ext (by
    match a with
    | ⟨0, _⟩ => rfl
    | ⟨1, _⟩ => rfl)
  rw [e']
  exact clipped_apply x0 x1 x2 p q

end

/-- A 1×1 value holding `r`. -/
def cellOf (r : EReal) : Vec Ideal S1x1 .f32 := fun _ => r

/-- The accumulating store's value is the cell's contents plus the block's total. -/
theorem step_eq (x0 : Vec Ideal S512x256 .f32) (x1 : Vec Ideal S1024x256 .f32) (x2 : Vec Ideal S512 .i32) (prev : Vec Ideal S1x1 .f32) :
    k0_pay3 (F := Ideal) x0 x1 x2 prev = addf (shapeCast S1x1 prev shapeCasts_S1x1_S1x1) (blockTotal x0 x1 x2) := rfl

theorem step_cell (x0 : Vec Ideal S512x256 .f32) (x1 : Vec Ideal S1024x256 .f32) (x2 : Vec Ideal S512 .i32) (r : EReal) :
    k0_pay3 (F := Ideal) x0 x1 x2 (cellOf r) = cellOf (r + blockSum x0 x1 x2) := by
  rw [step_eq, shapeCast_self]
  funext i
  obtain ⟨u, v, rfl⟩ : ∃ (u v : Fin 1), i = ix2 u v := ⟨i 0, i 1, eq_ix2 i⟩
  show cellOf r (ix2 u v) + blockTotal x0 x1 x2 (ix2 u v) = _
  rw [blockTotal_apply]
  rfl

/-- The reset stores zero. -/
theorem reset_cell : k0_pay2 (F := Ideal) = cellOf 0 := by
  funext i
  show Ideal.ofBits .f32 0x00000000#32 = 0
  exact Ideal.ofBits_zero_f32

/-- The last point's store divides the cell by the sample count. -/
theorem mean_cell (r : EReal) : k0_pay1 (F := Ideal) (cellOf r) = cellOf (Ideal.div r (Ideal.ofBits .f32 0x47000000#32)) := by
  unfold k0_pay1
  rw [shapeCast_self]
  rfl

end Cert.KernelIdeal.BlockValue

end
-- ==== Proof.Rows.lean ====
/-
  The blocks a grid point sees are rows of the argument arrays.

  Window 0 stages 512 consecutive sample rows, block `t` starting at row `512 t`; window 1 stages all the centres at every
  point; window 2 stages the 512 labels of the same samples. So the block sum at point `t` is the sum of the whole
  arrays' entries over the samples `512 t … 512 t + 511` and all classes (`blockSum_rows`).
-/
import proofs.«161858_j69681549410333_1_alg».proof.Proof.Gen.KernelIdeal.Frame
import proofs.«161858_j69681549410333_1_alg».proof.Proof.Distance
import Idealize.ShloMosaic.Lib.Pipeline.Value

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen Cert.CenterLoss

variable (m : (ℓ : Loc nD τ sig) → Buf (Elt Ideal) ℓ)

/-- The argument arrays as the region finds them. -/
abbrev samples (c : Dev nD) : Vec Ideal S32768x256 .f32 := V m c main_arg0
abbrev centres (c : Dev nD) : Vec Ideal S1024x256 .f32 := V m c main_arg1
abbrev labels (c : Dev nD) : Vec Ideal S32768 .i32 := V m c main_arg2

/-- The blocks the body finds at point `t`: 512 sample rows, all centres, 512 labels. -/
abbrev xblk (c : Dev nD) (t : Fin cfg0.N) : Vec Ideal S512x256 .f32 := iblk m c 0 t
abbrev cblk (c : Dev nD) (t : Fin cfg0.N) : Vec Ideal S1024x256 .f32 := iblk m c 1 t
abbrev lblk (c : Dev nD) (t : Fin cfg0.N) : Vec Ideal S512 .i32 := iblk m c 2 t

/-- A grid point as one of the 64 blocks. -/
def blockOf (t : Fin cfg0.N) : Fin 64 := ⟨t.val, lt_of_lt_of_eq t.isLt N_0⟩

/-- The three index maps over the grid: block `t` of the samples and of the labels, the one block of the centres. -/
theorem sample_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem centre_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem label_index : ∀ t : Fin cfg0.N, win0_2.index t (0 : Fin 1) = t.val :=
  (by decide +kernel : ∀ t : Fin grid0.N, win0_2.index t (0 : Fin 1) = t.val)

/-- Row `p` of the sample block at point `t` is row `512 t + p` of the samples. -/
theorem xblk_apply (c : Dev nD) (t : Fin cfg0.N) (p : Fin 512) (k : Fin 256) :
    xblk m c t (ix2 p k) = samples m c (ix2 (rowOf (blockOf t) p) k) := by
  unfold xblk iblk
  rw [View.read_apply]
  show V m c main_arg0 _ = V m c main_arg0 _
  congr 1
  funext a
  apply Fin.ext
  match a with
  | ⟨0, _⟩ => show win0_0.index t 0 * 512 + 1 * p.val = 512 * t.val + p.val; rw [(sample_index t).1]; omega
  | ⟨1, _⟩ => show win0_0.index t 1 * 256 + 1 * k.val = k.val; rw [(sample_index t).2]; omega

/-- The centre block at any point is all the centres. -/
theorem cblk_apply (c : Dev nD) (t : Fin cfg0.N) (q : Fin 1024) (k : Fin 256) :
    cblk m c t (ix2 q k) = centres m c (ix2 q k) := by
  unfold cblk iblk
  rw [View.read_apply]
  show V m c main_arg1 _ = V m c main_arg1 _
  congr 1
  funext a
  apply Fin.ext
  match a with
  | ⟨0, _⟩ => show win0_1.index t 0 * 1024 + 1 * q.val = q.val; rw [(centre_index t).1]; omega
  | ⟨1, _⟩ => show win0_1.index t 1 * 256 + 1 * k.val = k.val; rw [(centre_index t).2]; omega

/-- Label `p` of the label block at point `t` is label `512 t + p`. -/
theorem lblk_apply (c : Dev nD) (t : Fin cfg0.N) (p : Fin 512) :
    lblk m c t (ix1 p) = labels m c (ix1 (rowOf (blockOf t) p)) := by
  unfold lblk iblk
  rw [View.read_apply]
  show V m c main_arg2 _ = V m c main_arg2 _
  congr 1
  funext a
  apply Fin.ext
  match a with
  | ⟨0, _⟩ => show win0_2.index t 0 * 512 + 1 * p.val = 512 * t.val + p.val; rw [label_index t]; omega

/-- The block sum at point `t` is the whole arrays' entries summed over that block's samples and all classes. -/
theorem blockSum_rows (c : Dev nD) (t : Fin cfg0.N) :
    blockSum (xblk m c t) (cblk m c t) (lblk m c t)
      = ∑ p : Fin 512, ∑ q : Fin 1024, cell (samples m c) (centres m c) (labels m c) (rowOf (blockOf t) p) q := by
  unfold blockSum cell
  refine Finset.sum_congr rfl fun p _ => Finset.sum_congr rfl fun q _ => ?_
  have ex : (fun k => xblk m c t (ix2 p k)) = fun k => samples m c (ix2 (rowOf (blockOf t) p) k) :=
    funext fun k => xblk_apply m c t p k
  have ec : (fun k => cblk m c t (ix2 q k)) = fun k => centres m c (ix2 q k) := funext fun k => cblk_apply m c t q k
  rw [ex, ec, lblk_apply m c t p]

end Cert.KernelIdeal.Rows

end
-- ==== Proof.Running.lean ====
/-
  The output cell after each grid point: the block sums added up in grid order, and the quotient at the end.

  The cell is reset at the first point and carried from point to point, so after point `n` (before the last) it holds
  zero plus the first `n + 1` block sums added one after another (`cell_before_last`, by induction on the point: the
  first point's value over the reset, every later one over what the point before left); the last point adds its own block
  sum and then divides by the sample count (`cell_at_last`).
-/
import proofs.«161858_j69681549410333_1_alg».proof.Proof.Gen.KernelIdeal.Frame
import proofs.«161858_j69681549410333_1_alg».proof.Proof.Pieces
import proofs.«161858_j69681549410333_1_alg».proof.Proof.BlockValue
import proofs.«161858_j69681549410333_1_alg».proof.Proof.Rows

noncomputable section

open Idealize.ShloMosaic Idealize.ShloMosaic.TcCoe Idealize.SL.Sem

namespace Cert.KernelIdeal.Running

open Cert.KernelIdeal Cert.KernelIdeal.Gen Cert.CenterLoss Cert.KernelIdeal.BlockValue Cert.KernelIdeal.Rows

variable (m : (ℓ : Loc nD τ sig) → Buf (Elt Ideal) ℓ)

/-- The block sum at grid position `t` (zero past the grid). -/
def part (c : Dev nD) (t : ℕ) : EReal :=
  if h : t < cfg0.N then blockSum (xblk m c ⟨t, h⟩) (cblk m c ⟨t, h⟩) (lblk m c ⟨t, h⟩) else 0

theorem part_of_lt (c : Dev nD) (t : ℕ) (h : t < cfg0.N) :
    part m c t = blockSum (xblk m c ⟨t, h⟩) (cblk m c ⟨t, h⟩) (lblk m c ⟨t, h⟩) := dif_pos h

/-- Before the last point the cell holds the block sums so far, added in grid order from zero. -/
theorem cell_before_last (c : Dev nD) : ∀ (n : ℕ) (hn : n < 63) (h : n < cfg0.N), outsAt0 m c n h = cellOf (upTo (part m c) n)
  | 0, _, h => by
    refine (outsAt0_A m c ⟨0, h⟩ rfl (by dsimp only; omega)).trans ?_
    refine (Pieces.out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) _ _ (xblk m c ⟨0, h⟩) (cblk m c ⟨0, h⟩) (lblk m c ⟨0, h⟩)).trans ?_
    rw [reset_cell, step_cell, upTo_zero, part_of_lt m c 0 h]
  | n + 1, hn, h => by
    have h0 : ¬(⟨n + 1, h⟩ : Fin cfg0.N).val % 64 = 0 := by dsimp only; omega
    have h1 : ¬(⟨n + 1, h⟩ : Fin cfg0.N).val % 64 = 63 := by dsimp only; omega
    refine (outsAt0_B m c ⟨n + 1, h⟩ h0 h1).trans ?_
    refine (Pieces.out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) _ _ (xblk m c ⟨n + 1, h⟩) (cblk m c ⟨n + 1, h⟩) (lblk m c ⟨n + 1, h⟩)
      (outsAt0 m c n (Nat.lt_of_succ_lt h))).trans ?_
    rw [cell_before_last c n (by omega) (Nat.lt_of_succ_lt h), step_cell, upTo_succ, part_of_lt m c (n + 1) h]

/-- After the last point the cell holds all 64 block sums added up, divided by the sample count. -/
theorem cell_at_last (c : Dev nD) (h : 63 < cfg0.N) :
    outsAt0 m c 63 h = cellOf (Ideal.div (upTo (part m c) 63) (Ideal.ofBits .f32 0x47000000#32)) := by
  have h62 : 62 < cfg0.N := Nat.lt_of_succ_lt h
  refine (outsAt0_C m c ⟨63, h⟩ (by dsimp only; omega) rfl).trans ?_
  refine (Pieces.out_C (F := Ideal) c (grid0.coords ⟨63, h⟩) (ms0_0 ⟨63, h⟩) (hs0_0 ⟨63, h⟩) (ms0_1 ⟨63, h⟩) (hs0_1 ⟨63, h⟩)
    (ms0_2 ⟨63, h⟩) (hs0_2 ⟨63, h⟩) (ms0_3 ⟨63, h⟩) (hs0_3 ⟨63, h⟩) _ _ (xblk m c ⟨63, h⟩) (cblk m c ⟨63, h⟩) (lblk m c ⟨63, h⟩)
    (outsAt0 m c 62 h62)).trans ?_
  have e : upTo (part m c) 63 = upTo (part m c) 62 + part m c 63 := upTo_succ (part m c) 62
  rw [cell_before_last m c 62 (by decide) h62, step_cell, mean_cell, e, part_of_lt m c 63 h]

end Cert.KernelIdeal.Running

end
-- ==== Proof.Result.lean ====
/-
  The kernel's result: the loss of its arguments.

  The 64 block sums are the whole double sum split by blocks of samples, so the cell after the last point holds the
  loss (`cell_final`). The output window is written back once, after the last point, and its one block is the whole
  1×1 result array (`flushed_eq`, `array_final`); the host then reads that array as a scalar (`scalar_final`). The run
  (`run`) is the generated frame run with its post read at the result and at the arguments.
-/
import proofs.«161858_j69681549410333_1_alg».proof.Proof.Gen.KernelIdeal.Frame
import proofs.«161858_j69681549410333_1_alg».proof.Proof.Running
import proofs.«161858_j69681549410333_1_alg».proof.Proof.Rows
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.CenterLoss Cert.KernelIdeal.BlockValue Cert.KernelIdeal.Rows Cert.KernelIdeal.Running

variable (m : (ℓ : Loc nD τ sig) → Buf (Elt Ideal) ℓ) (ρ : Dev nD → PrngReg)

/-- All 64 block sums added up are the total over all samples and classes. -/
theorem all_blocks (c : Dev nD) : upTo (part m c) 63 = total (samples m c) (centres m c) (labels m c) := by
  rw [upTo_last]
  unfold total
  rw [sum_blocks]
  refine Finset.sum_congr rfl fun t _ => ?_
  have ht : t.val < cfg0.N := by rw [show cfg0.N = 64 from N_0]; exact t.isLt
  rw [part_of_lt m c t.val ht, blockSum_rows]
  rfl

/-- The loss of the arguments, as the 1×1 result array's contents. -/
abbrev lossCell (c : Dev nD) : Buf (Elt Ideal) ((c : Thread nD τ).loc main_v0) :=
  cellOf (loss (samples m c) (centres m c) (labels m c))

/-- The last grid point. -/
abbrev lastPoint : Fin cfg0.N := ⟨63, by decide⟩

/-- After the last point the cell holds the loss. -/
theorem cell_final (c : Dev nD) : outsAt0 m c 63 lastPoint.isLt = lossCell m c := by
  rw [cell_at_last, all_blocks]
  rfl

/-- The one write-back, after the last point, writes the loss cell: the block is the whole 1×1 array. -/
theorem flushed_eq (c : Dev nD) (t : Fin cfg0.N) (hf : (cfg0.win 3).flush t = true) :
    (dats m 0 c).flushed 3 t = ((cfg0.win 3).blk t).view.read (Elt Ideal) (lossCell m c) := by
  have hN : cfg0.N = 64 := N_0
  have h63 : t.val = 63 := by have := (flush0_3 t).mp hf; have := t.isLt; omega
  obtain rfl : t = lastPoint := Fin.ext h63
  show (cfg0.win 3).cut (grid0.coords lastPoint) ((dats m 0 c).after 3 lastPoint) = _
  rw [after0_3, cell_final]
  funext y
  rfl

/-- So the result array ends holding the loss. -/
theorem array_final (c : Dev nD) : (dats m 0 c).arrAt 3 cfg0.N = lossCell m c :=
  (dats m 0 c).arrAt_eq_of_cover 3 (lossCell m c) (flushed_eq m c) fun i =>
    ⟨lastPoint, (flush0_3 lastPoint).mpr rfl, by
      show i ∈ ((View.whole main_v0).slice (win0_3.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPoint 0 * win0_3.size 0 ≤ (i 0 : Nat) ∧ (i 0 : Nat) < win0_3.index lastPoint 0 * win0_3.size 0 + win0_3.xsize (grid0.coords lastPoint) 0
        rw [show win0_3.index lastPoint 0 * win0_3.size 0 = 0 from by decide +kernel, show win0_3.xsize (grid0.coords lastPoint) 0 = 1 from by decide +kernel]; omega
      | ⟨1, _⟩ =>
        show win0_3.index lastPoint 1 * win0_3.size 1 ≤ (i 1 : Nat) ∧ (i 1 : Nat) < win0_3.index lastPoint 1 * win0_3.size 1 + win0_3.xsize (grid0.coords lastPoint) 1
        rw [show win0_3.index lastPoint 1 * win0_3.size 1 = 0 from by decide +kernel, show win0_3.xsize (grid0.coords lastPoint) 1 = 1 from by decide +kernel]; omega⟩

/-- The host's reading of the 1×1 array as a scalar: the loss. -/
theorem scalar_final (c : Dev nD) :
    Pipeline.afterTail₀ cfgs (dats m) 0 (V0 m) [hostOps1] c main_v1 = fun _ => loss (samples m c) (centres m c) (labels m c) := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N) (Proc.tc.devRef main_v0)
      = lossCell m c :=
    (Pipeline.withArrays_arr spec0 launch0.win.arr_inj c (V0 m c) _ 3).trans (array_final m c)
  rw [e]
  rfl

/-- The result buffer is one the pipeline does not stage. -/
theorem result_unstaged : main_v1 ∈ Pipeline.restRefs sig spec0 := by decide

/-- THE RUN: every weakly fair execution terminates with the result at the loss of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v1)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v1 result_unstaged).trans (scalar_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  The centre loss: a kernel that streams the samples in blocks of 512 against all centres, and its reference.

  Both programs compute, over the extended reals,
      ( Σ_b Σ_q  min hi (max lo ((|x_b|² + |c_q|² − 2⟨x_b, c_q⟩) · [label_b = q])) ) / 32768
  with the same literal bounds and the same literal divisor. The reference forms the whole 32768 × 1024 matrix and adds all
  its entries in one reduction. The kernel visits 64 blocks of 512 samples; at each it forms the block's 512 × 1024
  entries (the product taken on narrowed operands, which is the identity on extended reals), adds them along the classes
  and then along the rows, and adds the block's sum into a 1×1 cell that it resets at the first block and divides by the
  sample count after the last. Entry by entry the two programs apply the same operations; the sums differ only in
  grouping, and addition of extended reals is commutative and associative, so the results are equal without any appeal to
  finiteness of the inputs.

  The three frames are the generated ones (the reference's from its generated run); the idealization rewrote nothing,
  so `preserves` is trivial; `algebraic` puts the kernel's run (Proof/Result.lean) beside the reference's generated run
  read back as the loss (Proof/Reference.lean).
-/
import proofs.«161858_j69681549410333_1_alg».proof.Defs
import proofs.«161858_j69681549410333_1_alg».proof.Proof.Gen.Kernel
import proofs.«161858_j69681549410333_1_alg».proof.Proof.Gen.Kernel.Frame
import proofs.«161858_j69681549410333_1_alg».proof.Proof.Gen.KernelIdeal
import proofs.«161858_j69681549410333_1_alg».proof.Proof.Gen.KernelIdeal.Frame
import proofs.«161858_j69681549410333_1_alg».proof.Proof.Gen.ReferenceIdeal
import proofs.«161858_j69681549410333_1_alg».proof.Proof.Gen.ReferenceIdeal.Run
import proofs.«161858_j69681549410333_1_alg».proof.Proof.Gen.ReferenceIdeal.Read
import proofs.«161858_j69681549410333_1_alg».proof.Proof.Gen.Pre_finite_inputs
import proofs.«161858_j69681549410333_1_alg».proof.Proof.Reference
import proofs.«161858_j69681549410333_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the loss of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
